-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x16 .f32) (main_arg3 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S1x16 : Shape := ⟨2, ![1, 16]⟩
abbrev S10000x16 : Shape := ⟨2, ![10000, 16]⟩
abbrev S400x10000 : Shape := ⟨2, ![400, 10000]⟩
abbrev S400x16 : Shape := ⟨2, ![400, 16]⟩
abbrev S400 : Shape := ⟨1, ![400]⟩
abbrev S400x1 : Shape := ⟨2, ![400, 1]⟩

abbrev nBuf : Space → Nat
  | .hbm => 6
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S1x16, .f32⟩
  | .hbm, ⟨5, _⟩ => ⟨S10000x16, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x16, .f32⟩
  | .local _ .vmem, ⟨4, _⟩ => ⟨S1x16, .f32⟩
  | .local _ .vmem, ⟨5, _⟩ => ⟨S400x16, .f32⟩
  | .local _ .vmem, ⟨6, _⟩ => ⟨S400x16, .f32⟩
  | .local _ .vmem, ⟨7, _⟩ => ⟨S10000x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16_S1x16 : S16.ShapeCasts S1x16
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S400x10000_S400x10000_0_0 : ∀ a, (![0, 0] : Fin 2 → Nat) a + S400x10000.size a ≤ S400x10000.size a
  h_S400x10000 : 0 < S400x10000.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  reduces_S400x16_S400 : S400x16.Reduces [1] S400
  shapeCasts_S400_S400x1 : S400.ShapeCasts S400x1
  broadcasts_S400x1_S400x16 : S400x1.Broadcasts S400x16
  inb_S400x16_S400x16_0_0 : ∀ a, (![0, 0] : Fin 2 → Nat) a + S400x16.size a ≤ S400x16.size a
  h_S400x16 : 0 < S400x16.numel
  dot_S10000x128_S128x16_S10000x16_1_0_0_1_n_n_wf : DotDims.WF S10000x128 S128x16 S10000x16 [1] [0] [0] [1] [] []
  dot_S400x10000_S10000x16_S400x16_1_0_0_1_n_n_wf : DotDims.WF S400x10000 S10000x16 S400x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .f32 = 32 ∨ (Rect.block (s := S128x16) S128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x16.size a ≤ S10000x16.size a
  hwx0_4 : ∀ i : grid0.Coords, EltTy.bits .f32 = 32 ∨ (Rect.block (s := S10000x16) S400x16.size (cc0_transform_4 i) (hinb0_4 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S400x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16 : Shape := ⟨1, ![16]⟩
abbrev S10000x16 : Shape := ⟨2, ![10000, 16]⟩
abbrev S1x16 : Shape := ⟨2, ![1, 16]⟩
abbrev S_ : Shape := ⟨0, ![]⟩
abbrev S10000 : Shape := ⟨1, ![10000]⟩
abbrev S10000x1 : Shape := ⟨2, ![10000, 1]⟩

abbrev nBuf : Space → Nat
  | .hbm => 27
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16, .f32⟩
  | .hbm, ⟨4, _⟩ => ⟨S10000x16, .f32⟩
  | .hbm, ⟨5, _⟩ => ⟨S10000x16, .f32⟩
  | .hbm, ⟨6, _⟩ => ⟨S1x16, .f32⟩
  | .hbm, ⟨7, _⟩ => ⟨S10000x16, .f32⟩
  | .hbm, ⟨8, _⟩ => ⟨S10000x16, .f32⟩
  | .hbm, ⟨9, _⟩ => ⟨S_, .f32⟩
  | .hbm, ⟨10, _⟩ => ⟨S10000x16, .f32⟩
  | .hbm, ⟨11, _⟩ => ⟨S10000x16, .f32⟩
  | .hbm, ⟨12, _⟩ => ⟨S_, .f32⟩
  | .hbm, ⟨13, _⟩ => ⟨S10000, .f32⟩
  | .hbm, ⟨14, _⟩ => ⟨S_, .f32⟩
  | .hbm, ⟨15, _⟩ => ⟨S10000, .f32⟩
  | .hbm, ⟨16, _⟩ => ⟨S10000, .f32⟩
  | .hbm, ⟨17, _⟩ => ⟨S10000x1, .f32⟩
  | .hbm, ⟨18, _⟩ => ⟨S10000x16, .f32⟩
  | .hbm, ⟨19, _⟩ => ⟨S10000x16, .f32⟩
  | .hbm, ⟨20, _⟩ => ⟨S10000x16, .f32⟩
  | .hbm, ⟨21, _⟩ => ⟨S_, .f32⟩
  | .hbm, ⟨22, _⟩ => ⟨S10000, .f32⟩
  | .hbm, ⟨23, _⟩ => ⟨S10000x1, .f32⟩
  | .hbm, ⟨24, _⟩ => ⟨S10000x1, .f32⟩
  | .hbm, ⟨25, _⟩ => ⟨S10000x16, .f32⟩
  | .hbm, ⟨26, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_call1_cst : Ref sig .tc := ⟨.hbm, 12, rfl⟩
abbrev main_call1_v0 : Ref sig .tc := ⟨.hbm, 13, rfl⟩
abbrev main_call1_cst_0 : Ref sig .tc := ⟨.hbm, 14, rfl⟩
abbrev main_call1_v1 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_v6 : Ref sig .tc := ⟨.hbm, 20, rfl⟩
abbrev main_call1_cst_1 : Ref sig .tc := ⟨.hbm, 21, rfl⟩
abbrev main_call1_v7 : Ref sig .tc := ⟨.hbm, 22, rfl⟩
abbrev main_call1_v8 : Ref sig .tc := ⟨.hbm, 23, rfl⟩
abbrev main_call1_v9 : Ref sig .tc := ⟨.hbm, 24, rfl⟩
abbrev main_call1_v10 : Ref sig .tc := ⟨.hbm, 25, rfl⟩
abbrev main_v6 : Ref sig .tc := ⟨.hbm, 26, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.CaseValue.lean ====
import proofs.«112271_g41807211659408_cont_sun_c4_862_22_alg».proof.Proof.Gen.KernelIdeal.Frame
import Idealize.ShloMosaic.Lib.Pipeline.Value
import Idealize.ShloMosaic.Lib.Tactic
set_option maxRecDepth 16384

noncomputable section

open Idealize.ShloMosaic Idealize.ShloMosaic.TcCoe Idealize.SL.Sem Idealize.ShloMosaic.Tactic
open Idealize.ShloMosaic.Pipeline (Dat)

namespace Cert.KernelIdeal.CaseValue

open Cert.KernelIdeal Cert.KernelIdeal.Gen

variable {F : FTy → Type} [FloatOps F]

/-! What the body leaves, case by case, as values of the blocks it loads.

  At the grid's first point the body stores `x · W` (the first payload of the whole `x` and `W` blocks) into the
  carried scratch, reads it back, and stores the second payload of the `adj` block, that product and the bias row. At every
  other point it stores nothing into the scratch and the second payload reads what the point before left there. -/

theorem hz : (![0, 0] : Fin 2 → Nat) = fun _ => 0 := funext fun a => by fin_cases a <;> rfl

/-- First point: the scratch ends at the product of the `x` block and the `W` block. -/
theorem scratch_first (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S400x16 .f32) (harg5 : arg5.IsWhole) (arg6 : Memref sig .tc .vmem S10000x16 .f32) (harg6 : arg6.IsWhole) (hc0 : cond0_0 i)
    (x0 : Vec F S400x10000 .f32) (x1 : Vec F S10000x128 .f32) (x2 : Vec F S128x16 .f32) (x3 : Vec F S1x16 .f32) :
    sout0_A_0 c i arg1 harg1 arg2 harg2 arg3 harg3 arg4 harg4 arg5 harg5 arg6 harg6 hc0 x0 x1 x2 x3 = k0_pay1 x1 x2 := by
  unfold sout0_A_0
  rw [View.read_writes_eq_canon _ _ _ (scover0_A_0 c i arg1 harg1 arg2 harg2 arg3 harg3 arg4 harg4 arg5 harg5 arg6 harg6 hc0 x0 x1 x2 x3)]
  unfold kernelRun0_A
  dsimp only
  sl_unfold_words
  rw [View.canon_unit_zero hz]
  simp only [View.readAt_eq_ld, harg2.read_unread, harg3.read_unread, View.ld_unit_zero (S := S10000x128) hz,
    View.ld_unit_zero (S := S128x16) hz]

/-- First point: the output block is the second payload over the product just stored. -/
theorem out_first (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S400x16 .f32) (harg5 : arg5.IsWhole) (arg6 : Memref sig .tc .vmem S10000x16 .f32) (harg6 : arg6.IsWhole) (hc0 : cond0_0 i)
    (x0 : Vec F S400x10000 .f32) (x1 : Vec F S10000x128 .f32) (x2 : Vec F S128x16 .f32) (x3 : Vec F S1x16 .f32) :
    out0_A_4 c i arg1 harg1 arg2 harg2 arg3 harg3 arg4 harg4 arg5 harg5 arg6 harg6 hc0 x0 x1 x2 x3 = k0_pay2 x0 (k0_pay1 x1 x2) x3 := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  rw [View.canon_unit_zero hz]
  simp only [View.readAt_eq_ld, harg1.read_unread, harg2.read_unread, harg3.read_unread, harg4.read_unread,
    View.ld_unit_zero (S := S400x10000) hz, View.ld_unit_zero (S := S10000x128) hz, View.ld_unit_zero (S := S128x16) hz,
    View.ld_unit_zero (S := S1x16) hz, View.readCov_unit_zero (S := S10000x16) _ hz]

/-- Any later point: the output block is the second payload over what the scratch held on entry. -/
theorem out_later (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x16 .f32) (harg3 : arg3.IsWhole) (arg4 : Memref sig .tc .vmem S1x16 .f32) (harg4 : arg4.IsWhole) (arg5 : Memref sig .tc .vmem S400x16 .f32) (harg5 : arg5.IsWhole) (arg6 : Memref sig .tc .vmem S10000x16 .f32) (harg6 : arg6.IsWhole) (hc0 : ¬cond0_0 i)
    (x0 : Vec F S400x10000 .f32) (x1 : Vec F S10000x128 .f32) (x2 : Vec F S128x16 .f32) (x3 : Vec F S1x16 .f32) (xs0 : Vec F S10000x16 .f32) :
    out0_B_4 c i arg1 harg1 arg2 harg2 arg3 harg3 arg4 harg4 arg5 harg5 arg6 harg6 hc0 x0 x1 x2 x3 xs0 = k0_pay2 x0 xs0 x3 := by
  unfold out0_B_4
  rw [View.read_writes_eq_canon _ _ _ (cover0_B_4 c i arg1 harg1 arg2 harg2 arg3 harg3 arg4 harg4 arg5 harg5 arg6 harg6 hc0 x0 x1 x2 x3 xs0)]
  unfold kernelRun0_B
  dsimp only
  sl_unfold_words
  rw [View.canon_unit_zero hz]
  simp only [View.readAt_eq_ld, harg1.read_unread, harg4.read_unread, harg6.read_unread,
    View.ld_unit_zero (S := S400x10000) hz, View.ld_unit_zero (S := S10000x16) hz, View.ld_unit_zero (S := S1x16) hz]

end Cert.KernelIdeal.CaseValue

end
-- ==== Proof.Spec.lean ====
/-
  One graph-convolution layer followed by a row-wise log-softmax, as functions of the four argument arrays, and the one
  law that joins the two programs.

  With `S = x · W` (a sum over the 128 features), `h r j = max (∑ k, adj r k * S k j + b j) 0`, `M r` the largest of
  the sixteen entries of row `r` of `h` and `L r = log ∑ j, exp (h r j - M r)`, one program ends with
  `h r j - (M r + L r)` and the other with `(h r j - M r) - L r`. On the extended reals these agree as soon as `M r`
  is a real number: then `-(M r + L r) = -M r - L r` whatever `L r` is, and addition associates. `M r` is a real when
  every input entry is: a finite sum of products of reals is a real, so every `h r j` is a real that is at least zero.
-/
import Idealize.ShloMosaic.PureOps.Ideal.Laws
import Idealize.ShloMosaic.Lib.ValueIdx

noncomputable section

open scoped BigOperators

namespace Cert.GcnLogSoftmax

open Idealize.ShloMosaic Idealize.ShloMosaic.ValueIdx

/-! ## Extended reals that are real numbers -/

/-- The extended real `x` is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.zero : IsReal 0 := ⟨0, EReal.coe_zero.symm⟩

/-- A finite sum of real numbers is a real number. -/
theorem IsReal.sum {ι : Type*} (s : Finset ι) (f : ι → EReal) (h : ∀ i ∈ s, IsReal (f i)) : IsReal (∑ i ∈ s, f i) :=
  Finset.sum_induction f IsReal (fun _ _ => IsReal.add) IsReal.zero h

theorem IsReal.lt_top {x : EReal} (hx : IsReal x) : x < ⊤ := by
  obtain ⟨a, rfl⟩ := hx; exact EReal.coe_lt_top a

/-! ## One row of sixteen -/

/-- The largest entry of a row, taken from the bottom element. -/
def rowMax (h : Fin 16 → EReal) : EReal := (Finset.univ : Finset (Fin 16)).fold max ⊥ h

/-- The logarithm of the sum of the exponentials of the row's entries less its largest. -/
def logSumExp (h : Fin 16 → EReal) : EReal := Ideal.log (∑ k : Fin 16, Ideal.exp (h k - rowMax h))

/-- The row's log-softmax with the largest entry and the logarithm taken off together. -/
def rowJoint (h : Fin 16 → EReal) (j : Fin 16) : EReal := h j - (rowMax h + logSumExp h)

/-- The row's log-softmax with the largest entry taken off first and the logarithm after. -/
def rowStepwise (h : Fin 16 → EReal) (j : Fin 16) : EReal := (h j - rowMax h) - logSumExp h

theorem le_rowMax (h : Fin 16 → EReal) (k : Fin 16) : h k ≤ rowMax h :=
  (Finset.le_fold_max (h k)).mpr (Or.inr ⟨k, Finset.mem_univ k, le_rfl⟩)

theorem rowMax_ne_bot (h : Fin 16 → EReal) (k : Fin 16) (hk : h k ≠ ⊥) : rowMax h ≠ ⊥ :=
  fun e => hk (le_bot_iff.mp (e ▸ le_rowMax h k))

theorem rowMax_ne_top (h : Fin 16 → EReal) (hlt : ∀ k, h k < ⊤) : rowMax h ≠ ⊤ :=
  ne_of_lt ((Finset.fold_max_lt (⊤ : EReal)).mpr ⟨bot_lt_top, fun k _ => hlt k⟩)

/-- THE LAW: with the row's largest entry a real number, taking it off together with the logarithm or before it gives the
    same extended real, whatever the logarithm is. -/
theorem rowJoint_eq_rowStepwise (h : Fin 16 → EReal) (hb : rowMax h ≠ ⊥) (ht : rowMax h ≠ ⊤) (j : Fin 16) :
    rowJoint h j = rowStepwise h j := by
  unfold rowJoint rowStepwise
  rw [sub_eq_add_neg, EReal.neg_add (Or.inl hb) (Or.inl ht), sub_eq_add_neg, sub_eq_add_neg, sub_eq_add_neg, add_assoc]

/-! ## The layer -/

/-- `x · W`: entry `(k, j)` sums the 128 products along feature `l`. -/
def support (x : (⟨2, ![10000, 128]⟩ : Shape).Idx → EReal) (W : (⟨2, ![128, 16]⟩ : Shape).Idx → EReal)
    (k : Fin 10000) (j : Fin 16) : EReal := ∑ l : Fin 128, x (ix2 k l) * W (ix2 l j)

/-- The layer's activation: `max (∑ k, adj r k * (x · W) k j + b j) 0`. -/
def activation (x : (⟨2, ![10000, 128]⟩ : Shape).Idx → EReal) (adj : (⟨2, ![10000, 10000]⟩ : Shape).Idx → EReal)
    (W : (⟨2, ![128, 16]⟩ : Shape).Idx → EReal) (b : (⟨1, ![16]⟩ : Shape).Idx → EReal) (r : Fin 10000) (j : Fin 16) : EReal :=
  max ((∑ k : Fin 10000, adj (ix2 r k) * support x W k j) + b (ix1 j)) 0

/-- The result array: row `r` is the log-softmax of row `r` of the activation. -/
def result (x : (⟨2, ![10000, 128]⟩ : Shape).Idx → EReal) (adj : (⟨2, ![10000, 10000]⟩ : Shape).Idx → EReal)
    (W : (⟨2, ![128, 16]⟩ : Shape).Idx → EReal) (b : (⟨1, ![16]⟩ : Shape).Idx → EReal) :
    (⟨2, ![10000, 16]⟩ : Shape).Idx → EReal :=
  fun i => rowJoint (activation x adj W b (i 0)) (i 1)

variable {x : (⟨2, ![10000, 128]⟩ : Shape).Idx → EReal} {adj : (⟨2, ![10000, 10000]⟩ : Shape).Idx → EReal}
  {W : (⟨2, ![128, 16]⟩ : Shape).Idx → EReal} {b : (⟨1, ![16]⟩ : Shape).Idx → EReal}

theorem support_isReal (hx : ∀ i, IsReal (x i)) (hW : ∀ i, IsReal (W i)) (k : Fin 10000) (j : Fin 16) :
    IsReal (support x W k j) :=
  IsReal.sum _ _ fun l _ => (hx _).mul (hW _)

theorem activation_lt_top (hx : ∀ i, IsReal (x i)) (hadj : ∀ i, IsReal (adj i)) (hW : ∀ i, IsReal (W i)) (hb : ∀ i, IsReal (b i))
    (r : Fin 10000) (j : Fin 16) : activation x adj W b r j < ⊤ :=
  max_lt (((IsReal.sum _ _ fun k _ => (hadj _).mul (support_isReal hx hW k j)).add (hb _)).lt_top) EReal.zero_lt_top

theorem activation_ne_bot (r : Fin 10000) (j : Fin 16) : activation x adj W b r j ≠ ⊥ :=
  (lt_of_lt_of_le EReal.bot_lt_zero (le_max_right _ _)).ne'

/-- With every input entry a real number, each row's two forms of the log-softmax agree. -/
theorem result_stepwise (hx : ∀ i, IsReal (x i)) (hadj : ∀ i, IsReal (adj i)) (hW : ∀ i, IsReal (W i)) (hb : ∀ i, IsReal (b i))
    (i : (⟨2, ![10000, 16]⟩ : Shape).Idx) :
    result x adj W b i = rowStepwise (activation x adj W b (i 0)) (i 1) :=
  rowJoint_eq_rowStepwise _ (rowMax_ne_bot _ 0 (activation_ne_bot _ _))
    (rowMax_ne_top _ fun k => activation_lt_top hx hadj hW hb _ k) _

end Cert.GcnLogSoftmax

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.PayloadValue.lean ====
/-
  The body's two payloads at the ideal values, read at coordinates.

  The first payload is a matrix product into a zero accumulator: at `(k, j)` the sum over `l` of `x (k, l) * W (l, j)`.
  The second, of an `adj` block `a`, a product `s` and a bias row `β`: with `h p j = max (∑ k, a (p, k) * s (k, j) + β (0, j)) 0`,
  the row maximum `M p` is the fold of `max` from minus infinity over the sixteen entries of row `p`, kept as a column and
  broadcast back along the row; the exponentials of `h p j - M p` are summed along the row from zero; and the entry at
  `(p, j)` is `h p j - (M p + log (that sum))`: the joint form of the row's log-softmax.
-/
import proofs.«112271_g41807211659408_cont_sun_c4_862_22_alg».proof.Proof.Gen.KernelIdeal.Skeleton
import proofs.«112271_g41807211659408_cont_sun_c4_862_22_alg».proof.Proof.Spec
import proofs.«112271_g41807211659408_cont_sun_c4_862_22_alg».proof.Proof.LibContraction
import Idealize.ShloMosaic.Lib.Pipeline.Value
import Idealize.ShloMosaic.Lib.ValueIdx
import Idealize.ShloMosaic.PureOps.Ideal.Laws

noncomputable section

open scoped BigOperators

namespace Cert.KernelIdeal.PayloadValue

open Cert.KernelIdeal Cert.KernelIdeal.Gen Cert.GcnLogSoftmax Cert.Lib.Contraction
open Idealize.ShloMosaic Idealize.ShloMosaic.ValueIdx

/-! ### The two products' operand indices, axis by axis -/

theorem xw_lhs_0 (i : S10000x16.Idx) (q : dot_S10000x128_S128x16_S10000x16_1_0_0_1_n_n.contr.Idx) : (dot_S10000x128_S128x16_S10000x16_1_0_0_1_n_n.lhsIdx i q 0).val = (i 0).val :=
  lhs_free dot_S10000x128_S128x16_S10000x16_1_0_0_1_n_n rfl rfl i q (by decide)
theorem xw_lhs_1 (i : S10000x16.Idx) (l : Fin 128) :
    (dot_S10000x128_S128x16_S10000x16_1_0_0_1_n_n.lhsIdx i ((contrFin dot_S10000x128_S128x16_S10000x16_1_0_0_1_n_n (cl := 1) rfl 128 rfl).symm l) 1).val = l.val :=
  lhs_contracted dot_S10000x128_S128x16_S10000x16_1_0_0_1_n_n rfl 128 rfl i l
theorem xw_rhs_0 (i : S10000x16.Idx) (l : Fin 128) :
    (dot_S10000x128_S128x16_S10000x16_1_0_0_1_n_n.rhsIdx i ((contrFin dot_S10000x128_S128x16_S10000x16_1_0_0_1_n_n (cl := 1) rfl 128 rfl).symm l) 0).val = l.val :=
  rhs_contracted dot_S10000x128_S128x16_S10000x16_1_0_0_1_n_n rfl rfl 128 rfl i l
theorem xw_rhs_1 (i : S10000x16.Idx) (q : dot_S10000x128_S128x16_S10000x16_1_0_0_1_n_n.contr.Idx) : (dot_S10000x128_S128x16_S10000x16_1_0_0_1_n_n.rhsIdx i q 1).val = (i 1).val :=
  rhs_free dot_S10000x128_S128x16_S10000x16_1_0_0_1_n_n rfl rfl rfl rfl i q (by decide)

theorem as_lhs_0 (i : S400x16.Idx) (q : dot_S400x10000_S10000x16_S400x16_1_0_0_1_n_n.contr.Idx) : (dot_S400x10000_S10000x16_S400x16_1_0_0_1_n_n.lhsIdx i q 0).val = (i 0).val :=
  lhs_free dot_S400x10000_S10000x16_S400x16_1_0_0_1_n_n rfl rfl i q (by decide)
theorem as_lhs_1 (i : S400x16.Idx) (k : Fin 10000) :
    (dot_S400x10000_S10000x16_S400x16_1_0_0_1_n_n.lhsIdx i ((contrFin dot_S400x10000_S10000x16_S400x16_1_0_0_1_n_n (cl := 1) rfl 10000 rfl).symm k) 1).val = k.val :=
  lhs_contracted dot_S400x10000_S10000x16_S400x16_1_0_0_1_n_n rfl 10000 rfl i k
theorem as_rhs_0 (i : S400x16.Idx) (k : Fin 10000) :
    (dot_S400x10000_S10000x16_S400x16_1_0_0_1_n_n.rhsIdx i ((contrFin dot_S400x10000_S10000x16_S400x16_1_0_0_1_n_n (cl := 1) rfl 10000 rfl).symm k) 0).val = k.val :=
  rhs_contracted dot_S400x10000_S10000x16_S400x16_1_0_0_1_n_n rfl rfl 10000 rfl i k
theorem as_rhs_1 (i : S400x16.Idx) (q : dot_S400x10000_S10000x16_S400x16_1_0_0_1_n_n.contr.Idx) : (dot_S400x10000_S10000x16_S400x16_1_0_0_1_n_n.rhsIdx i q 1).val = (i 1).val :=
  rhs_free dot_S400x10000_S10000x16_S400x16_1_0_0_1_n_n rfl rfl rfl rfl i q (by decide)

/-! ### The first payload -/

/-- `x · W` at `(k, j)`. -/
theorem product_at (xb : FVec Ideal S10000x128 .f32) (wb : FVec Ideal S128x16 .f32) (k : Fin 10000) (j : Fin 16) :
    k0_pay1 (F := Ideal) xb wb (ix2 k j) = support xb wb k j := by
  show shapeCast S10000x16 (matmul (F := Ideal) dot_S10000x128_S128x16_S10000x16_1_0_0_1_n_n none xb wb (constant (F := Ideal) S10000x16 .f32 0x00000000#32))
    shapeCasts_S10000x16_S10000x16 (ix2 k j) = _
  rw [shapeCast_self]
  simp only [matmul]
  rw [Ideal.matmul_constant_zero_apply, sum_contr dot_S10000x128_S128x16_S10000x16_1_0_0_1_n_n (cl := 1) rfl 128 rfl]
  unfold support
  refine Finset.sum_congr rfl fun l _ => ?_
  have el : dot_S10000x128_S128x16_S10000x16_1_0_0_1_n_n.lhsIdx (ix2 k j) ((contrFin dot_S10000x128_S128x16_S10000x16_1_0_0_1_n_n (cl := 1) rfl 128 rfl).symm l) = ix2 k l :=
    funext fun a => Fin.ext (by
      match a with
      | ⟨0, _⟩ => exact xw_lhs_0 _ _
      | ⟨1, _⟩ => exact xw_lhs_1 _ _)
  have er : dot_S10000x128_S128x16_S10000x16_1_0_0_1_n_n.rhsIdx (ix2 k j) ((contrFin dot_S10000x128_S128x16_S10000x16_1_0_0_1_n_n (cl := 1) rfl 128 rfl).symm l) = ix2 l j :=
    funext fun a => Fin.ext (by
      match a with
      | ⟨0, _⟩ => exact xw_rhs_0 _ _
      | ⟨1, _⟩ => exact xw_rhs_1 _ _)
  rw [el, er]

theorem product_eq (xb : FVec Ideal S10000x128 .f32) (wb : FVec Ideal S128x16 .f32) :
    k0_pay1 (F := Ideal) xb wb = fun i => support xb wb (i 0) (i 1) :=
  funext fun i => by
    obtain ⟨k, j, rfl⟩ : ∃ (k : Fin 10000) (j : Fin 16), i = ix2 k j := ⟨i 0, i 1, eq_ix2 i⟩
    exact product_at xb wb k j

/-! ### Columns and rows of a [400, 16] block -/

/-- A vector of 400 kept as a column, read at `(p, 0)`, is its entry `p`. -/
theorem column_at (v : FVec Ideal S400 .f32) (h : S400.ShapeCasts S400x1) (p : Fin 400) (z : Fin 1) :
    shapeCast S400x1 v h (ix2 p z) = v (ix1 p) :=
  shapeCast_apply v h (ix2 p z) (ix1 p) (by
    rw [Shape.rowMajor_val_one, Shape.rowMajor_val_two]
    show p.val = p.val * 1 + z.val
    have := z.isLt; omega)

/-- A column broadcast along the rows, read at `(p, j)`, is the column's entry `p`. -/
theorem spread_at (v : FVec Ideal S400x1 .f32) (h : S400x1.Broadcasts S400x16) (p : Fin 400) (j : Fin 16) :
    broadcastTo S400x16 v h (ix2 p j) = v (ix2 p 0) :=
  broadcastTo_apply v h (ix2 p j) (ix2 p 0) (fun a => by
    match a with
    | ⟨0, _⟩ => show p.val = if (400 : Nat) = 1 then 0 else p.val; rw [if_neg (by decide)]
    | ⟨1, _⟩ => show 0 = if (1 : Nat) = 1 then 0 else j.val; rw [if_pos rfl])

/-- The bias row broadcast down the columns, read at `(p, j)`, is the row's entry `j`. -/
theorem bias_at (v : FVec Ideal S1x16 .f32) (h : S1x16.Broadcasts S400x16) (p : Fin 400) (j : Fin 16) :
    broadcastTo S400x16 v h (ix2 p j) = v (ix2 0 j) :=
  broadcastTo_apply v h (ix2 p j) (ix2 0 j) (fun a => by
    match a with
    | ⟨0, _⟩ => show 0 = if (1 : Nat) = 1 then 0 else p.val; rw [if_pos rfl]
    | ⟨1, _⟩ => show j.val = if (16 : Nat) = 1 then 0 else j.val; rw [if_neg (by decide)])

/-- Row `p` with column coordinate `j` put back. -/
theorem lift_row (h : S400x16.Reduces [1] S400) (p : Fin 400) (j : Fin (S400x16.size 1)) :
    h.lift (ix1 p) j = ix2 p (⟨j.val, j.isLt⟩ : Fin 16) :=
  funext fun a => Fin.ext (by match a with | ⟨0, _⟩ => rfl | ⟨1, _⟩ => rfl)

/-- Minus infinity's word is the bottom element. -/
theorem negInf_eq_bot : Ideal.ofBits .f32 0xFF800000#32 = (⊥ : EReal) := by simp [Ideal.ofBits, Ideal.ieee]

/-- The row-wise maximum from minus infinity, at row `p`. -/
theorem rowMax_at (u : FVec Ideal S400x16 .f32) (h : S400x16.Reduces [1] S400) (hφ : FKind.Formats .f32)
    (hacc : (0xFF800000#32 : BitVec 32) = FKind.maximumf.neutral .f32 hφ) (p : Fin 400) :
    multiReduction (F := Ideal) .maximumf [1] S400 u 0xFF800000#32 h hφ hacc (ix1 p) = rowMax fun j => u (ix2 p j) := by
  rw [Ideal.multiReduction_maximumf_single]
  have hf : (u ∘ h.lift (ix1 p)) = fun j : Fin 16 => u (ix2 p j) := funext fun j => congrArg u (lift_row h p j)
  show (Finset.univ : Finset (Fin 16)).fold max (Ideal.ofBits .f32 0xFF800000#32) (u ∘ h.lift (ix1 p)) = _
  rw [hf, negInf_eq_bot]
  rfl

/-- The row-wise sum from zero, at row `p`. -/
theorem rowSum_at (u : FVec Ideal S400x16 .f32) (h : S400x16.Reduces [1] S400) (hφ : FKind.Formats .f32)
    (hacc : (0x00000000#32 : BitVec 32) = FKind.add.neutral .f32 hφ) (p : Fin 400) :
    multiReduction (F := Ideal) .add [1] S400 u 0x00000000#32 h hφ hacc (ix1 p) = ∑ j : Fin 16, u (ix2 p j) := by
  rw [Ideal.multiReduction_add_single]
  show ∑ j : Fin 16, u (h.lift (ix1 p) j) = _
  exact Finset.sum_congr rfl fun j _ => congrArg u (lift_row h p j)

/-! ### The second payload -/

/-- An entry less its row's column entry: a column broadcast along the rows and subtracted. -/
theorem spread_sub (u : FVec Ideal S400x16 .f32) (col : FVec Ideal S400x1 .f32) (hb : S400x1.Broadcasts S400x16)
    (p : Fin 400) (j : Fin 16) : subf u (broadcastTo S400x16 col hb) (ix2 p j) = u (ix2 p j) - col (ix2 p 0) := by
  rw [subf_apply, spread_at]

/-- The body's closing operations on an activation block `u`, at `(p, j)`: the joint form of row `p`'s log-softmax. -/
theorem closing_at (u : FVec Ideal S400x16 .f32) (hr : S400x16.Reduces [1] S400) (hc : S400.ShapeCasts S400x1)
    (hb : S400x1.Broadcasts S400x16) (hφ : FKind.Formats .f32)
    (hm : (0xFF800000#32 : BitVec 32) = FKind.maximumf.neutral .f32 hφ)
    (ha : (0x00000000#32 : BitVec 32) = FKind.add.neutral .f32 hφ) (p : Fin 400) (j : Fin 16) :
    subf u (broadcastTo S400x16
      (addf (shapeCast S400x1 (multiReduction (F := Ideal) .maximumf [1] S400 u 0xFF800000#32 hr hφ hm) hc)
        (log (shapeCast S400x1 (multiReduction (F := Ideal) .add [1] S400
          (exp (subf u (broadcastTo S400x16
            (shapeCast S400x1 (multiReduction (F := Ideal) .maximumf [1] S400 u 0xFF800000#32 hr hφ hm) hc) hb)))
          0x00000000#32 hr hφ ha) hc))) hb) (ix2 p j)
      = rowJoint (fun j => u (ix2 p j)) j := by
  rw [spread_sub, addf_apply, column_at, rowMax_at]
  show _ - (_ + Ideal.log (shapeCast S400x1 _ hc (ix2 p 0))) = _
  rw [column_at, rowSum_at]
  unfold rowJoint logSumExp
  refine congrArg (fun s => u (ix2 p j) - (rowMax (fun j => u (ix2 p j)) + Ideal.log s)) (Finset.sum_congr rfl fun j' _ => ?_)
  show Ideal.exp (subf u (broadcastTo S400x16 _ hb) (ix2 p j')) = _
  rw [spread_sub, column_at, rowMax_at]

/-- The activation of a block: of an `adj` block `ab`, a product `sb` and a bias row `bb`. -/
def blockActivation (ab : FVec Ideal S400x10000 .f32) (sb : FVec Ideal S10000x16 .f32) (bb : FVec Ideal S1x16 .f32)
    (p : Fin 400) (j : Fin 16) : EReal :=
  max ((∑ k : Fin 10000, ab (ix2 p k) * sb (ix2 k j)) + bb (ix2 0 j)) 0

/-- The block product at `(p, j)`. -/
theorem blockProduct_at (ab : FVec Ideal S400x10000 .f32) (sb : FVec Ideal S10000x16 .f32) (p : Fin 400) (j : Fin 16) :
    matmul (F := Ideal) dot_S400x10000_S10000x16_S400x16_1_0_0_1_n_n none ab sb (constant (F := Ideal) S400x16 .f32 0x00000000#32) (ix2 p j)
      = ∑ k : Fin 10000, ab (ix2 p k) * sb (ix2 k j) := by
  simp only [matmul]
  rw [Ideal.matmul_constant_zero_apply, sum_contr dot_S400x10000_S10000x16_S400x16_1_0_0_1_n_n (cl := 1) rfl 10000 rfl]
  refine Finset.sum_congr rfl fun k _ => ?_
  have el : dot_S400x10000_S10000x16_S400x16_1_0_0_1_n_n.lhsIdx (ix2 p j) ((contrFin dot_S400x10000_S10000x16_S400x16_1_0_0_1_n_n (cl := 1) rfl 10000 rfl).symm k) = ix2 p k :=
    funext fun a => Fin.ext (by
      match a with
      | ⟨0, _⟩ => exact as_lhs_0 _ _
      | ⟨1, _⟩ => exact as_lhs_1 _ _)
  have er : dot_S400x10000_S10000x16_S400x16_1_0_0_1_n_n.rhsIdx (ix2 p j) ((contrFin dot_S400x10000_S10000x16_S400x16_1_0_0_1_n_n (cl := 1) rfl 10000 rfl).symm k) = ix2 k j :=
    funext fun a => Fin.ext (by
      match a with
      | ⟨0, _⟩ => exact as_rhs_0 _ _
      | ⟨1, _⟩ => exact as_rhs_1 _ _)
  rw [el, er]

/-- The activation vector the body forms, at `(p, j)`. -/
theorem activation_at (ab : FVec Ideal S400x10000 .f32) (sb : FVec Ideal S10000x16 .f32) (bb : FVec Ideal S1x16 .f32)
    (hs : S1x16.ShapeCasts S1x16) (hbr : S1x16.Broadcasts S400x16) (p : Fin 400) (j : Fin 16) :
    maximumf (addf (matmul (F := Ideal) dot_S400x10000_S10000x16_S400x16_1_0_0_1_n_n none ab sb (constant (F := Ideal) S400x16 .f32 0x00000000#32))
        (broadcastTo S400x16 (shapeCast S1x16 bb hs) hbr))
      (broadcast S400x16 (Scalar.ofBits (F := Ideal) .f32 0x00000000#32)) (ix2 p j) = blockActivation ab sb bb p j := by
  rw [maximumf_apply, addf_apply, blockProduct_at, shapeCast_self, bias_at, broadcast_apply]
  show max _ (Ideal.ofBits .f32 0x00000000#32) = _
  rw [Ideal.ofBits_zero_f32]
  rfl

/-- THE SECOND PAYLOAD at `(p, j)`: the joint log-softmax of row `p` of the block's activation. -/
theorem block_at (ab : FVec Ideal S400x10000 .f32) (sb : FVec Ideal S10000x16 .f32) (bb : FVec Ideal S1x16 .f32)
    (p : Fin 400) (j : Fin 16) :
    k0_pay2 (F := Ideal) ab sb bb (ix2 p j) = rowJoint (blockActivation ab sb bb p) j := by
  unfold k0_pay2
  refine (closing_at _ reduces_S400x16_S400 shapeCasts_S400_S400x1 broadcasts_S400x1_S400x16 (.inl rfl) rfl rfl p j).trans ?_
  exact congrArg (fun h => rowJoint h j) (funext fun j' => activation_at ab sb bb shapeCasts_S1x16_S1x16 broadcasts_S1x16_S400x16 p j')

end Cert.KernelIdeal.PayloadValue

end
-- ==== Proof.ArrayValue.lean ====
/-
  The kernel's result array, as one function of the argument arrays.

  The grid has 25 points; point `t` stages rows `400 t … 400 t + 399` of `adj`, the whole of `x`, `W` and the bias row,
  and writes back rows `400 t … 400 t + 399` of the result. The scratch the body carries between points holds `x · W`
  after every point: the first point stores it, the later ones leave it alone (induction on the point). So every point's
  output block is the second payload of its `adj` block, `x · W` and the bias row, which at `(p, j)` is the joint
  log-softmax of row `400 t + p` of the layer's activation; the 25 blocks tile the array, so the array is that function
  everywhere.
-/
import proofs.«112271_g41807211659408_cont_sun_c4_862_22_alg».proof.Proof.Gen.KernelIdeal.Value
import proofs.«112271_g41807211659408_cont_sun_c4_862_22_alg».proof.Proof.CaseValue
import proofs.«112271_g41807211659408_cont_sun_c4_862_22_alg».proof.Proof.PayloadValue
import Idealize.ShloMosaic.Lib.StableHlo.Run

set_option maxRecDepth 16384

noncomputable section

open scoped BigOperators

namespace Cert.KernelIdeal.ArrayValue

open Cert.KernelIdeal Cert.KernelIdeal.Gen Cert.KernelIdeal.Value Cert.KernelIdeal.CaseValue
open Cert.KernelIdeal.PayloadValue Cert.GcnLogSoftmax
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ### The arrays and blocks, at their literal types -/

abbrev xArr (c : Dev nD) : FVec Ideal S10000x128 .f32 := V m c main_arg0
abbrev adjArr (c : Dev nD) : FVec Ideal S10000x10000 .f32 := V m c main_arg1
abbrev wArr (c : Dev nD) : FVec Ideal S128x16 .f32 := V m c main_arg2
abbrev biasArr (c : Dev nD) : FVec Ideal S16 .f32 := m ((c : Thread nD τ).loc main_arg3)
abbrev biasRow (c : Dev nD) : FVec Ideal S1x16 .f32 := V m c main_v0
abbrev adjBlk (c : Dev nD) (t : Fin cfg0.N) : FVec Ideal S400x10000 .f32 := iblk m c 0 t
abbrev xBlk (c : Dev nD) (t : Fin cfg0.N) : FVec Ideal S10000x128 .f32 := iblk m c 1 t
abbrev wBlk (c : Dev nD) (t : Fin cfg0.N) : FVec Ideal S128x16 .f32 := iblk m c 2 t
abbrev biasBlk (c : Dev nD) (t : Fin cfg0.N) : FVec Ideal S1x16 .f32 := iblk m c 3 t

/-- The row of the array that row `p` of point `t`'s block is. -/
def rowOf (t : Fin cfg0.N) (p : Fin 400) : Fin 10000 :=
  ⟨400 * t.val + p.val, by
    have h : t.val < 25 := lt_of_lt_of_eq t.isLt (show cfg0.N = 25 from N_0)
    have := p.isLt; omega⟩

/-- The index maps over the grid: the `adj` window and the output window move down one block of rows per point, the
    other three stay at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The `x` window's block is the whole array at every point. -/
theorem xBlk_eq (c : Dev nD) (t : Fin cfg0.N) : xBlk m c t = xArr m c := by
  obtain ⟨-, -, e0, e1, -⟩ := idx_facts t
  funext y
  unfold xBlk iblk
  rw [View.read_apply]
  show V m c main_arg0 (((cfg0.win 1).blk t).view.emb y) = V m c main_arg0 y
  refine congrArg (V m c main_arg0) (funext fun a => Fin.ext ?_)
  match a with
  | ⟨0, _⟩ => show win0_1.index t (0 : Fin 2) * 10000 + 1 * (y 0).val = (y 0).val; rw [e0]; omega
  | ⟨1, _⟩ => show win0_1.index t (1 : Fin 2) * 128 + 1 * (y 1).val = (y 1).val; rw [e1]; omega

/-- The `W` window's block is the whole array at every point. -/
theorem wBlk_eq (c : Dev nD) (t : Fin cfg0.N) : wBlk m c t = wArr m c := by
  obtain ⟨-, -, -, -, e0, e1, -⟩ := idx_facts t
  funext y
  unfold wBlk iblk
  rw [View.read_apply]
  show V m c main_arg2 (((cfg0.win 2).blk t).view.emb y) = V m c main_arg2 y
  refine congrArg (V m c main_arg2) (funext fun a => Fin.ext ?_)
  match a with
  | ⟨0, _⟩ => show win0_2.index t (0 : Fin 2) * 128 + 1 * (y 0).val = (y 0).val; rw [e0]; omega
  | ⟨1, _⟩ => show win0_2.index t (1 : Fin 2) * 16 + 1 * (y 1).val = (y 1).val; rw [e1]; omega

/-- The bias window's block is the whole bias row at every point. -/
theorem biasBlk_eq (c : Dev nD) (t : Fin cfg0.N) : biasBlk m c t = biasRow m c := by
  obtain ⟨-, -, -, -, -, -, e0, e1, -⟩ := idx_facts t
  funext y
  unfold biasBlk iblk
  rw [View.read_apply]
  show V m c main_v0 (((cfg0.win 3).blk t).view.emb y) = V m c main_v0 y
  refine congrArg (V m c main_v0) (funext fun a => Fin.ext ?_)
  match a with
  | ⟨0, _⟩ => show win0_3.index t (0 : Fin 2) * 1 + 1 * (y 0).val = (y 0).val; rw [e0]; omega
  | ⟨1, _⟩ => show win0_3.index t (1 : Fin 2) * 16 + 1 * (y 1).val = (y 1).val; rw [e1]; omega

/-- The `adj` window's block at point `t`, read at `(p, k)`, is `adj` at row `400 t + p`. -/
theorem adjBlk_at (c : Dev nD) (t : Fin cfg0.N) (p : Fin 400) (k : Fin 10000) :
    adjBlk m c t (ix2 p k) = adjArr m c (ix2 (rowOf t p) k) := by
  obtain ⟨e0, e1, -⟩ := idx_facts t
  unfold adjBlk iblk
  rw [View.read_apply]
  show V m c main_arg1 (((cfg0.win 0).blk t).view.emb (ix2 p k)) = V m c main_arg1 (ix2 (rowOf t p) k)
  refine congrArg (V m c main_arg1) (funext fun a => Fin.ext ?_)
  match a with
  | ⟨0, _⟩ => show win0_0.index t (0 : Fin 2) * 400 + 1 * p.val = 400 * t.val + p.val; rw [e0]; omega
  | ⟨1, _⟩ => show win0_0.index t (1 : Fin 2) * 10000 + 1 * k.val = k.val; rw [e1]; omega

/-- The bias row the region finds is the bias argument kept as one row. -/
theorem biasRow_at (c : Dev nD) (j : Fin 16) : biasRow m c (ix2 0 j) = biasArr m c (ix1 j) := by
  have e : (V m c main_v0 : S1x16.Idx → EReal)
      = shapeCast S1x16 (m ((c : Thread nD τ).loc main_arg3)) shapeCasts_S16_S1x16 := by
    dsimp only [Gen.V, Gen.hostOps0]; after_results; rfl
  show (V m c main_v0 : S1x16.Idx → EReal) (ix2 0 j) = _
  rw [e]
  exact shapeCast_apply _ _ (ix2 0 j) (ix1 j) (by
    rw [Shape.rowMajor_val_one, Shape.rowMajor_val_two]
    show j.val = 0 * 16 + j.val
    omega)

/-! ### The carried scratch and each point's output block -/

/-- After every point the carried scratch holds `x · W`. -/
theorem scratch_eq (c : Dev nD) : ∀ (n : ℕ) (h : n < cfg0.N),
    (outsAt0 m c n h).2 = k0_pay1 (F := Ideal) (xArr m c) (wArr m c)
  | 0, h => by
    rw [outsAt0_A m c ⟨0, h⟩ rfl]
    dsimp only
    refine (scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) ((hcond0_0 ⟨0, h⟩).mpr rfl)
      (iblk m c 0 ⟨0, h⟩) (iblk m c 1 ⟨0, h⟩) (iblk m c 2 ⟨0, h⟩) (iblk m c 3 ⟨0, h⟩)).trans ?_
    show k0_pay1 (F := Ideal) (xBlk m c ⟨0, h⟩) (wBlk m c ⟨0, h⟩) = _
    rw [xBlk_eq, wBlk_eq]
  | n + 1, h => by
    have hN : cfg0.N = 25 := N_0
    have hB : ¬(⟨n + 1, h⟩ : Fin cfg0.N).val % 25 = 0 := by dsimp only; omega
    rw [outsAt0_B m c ⟨n + 1, h⟩ hB]
    dsimp only
    unfold sout0_B_0
    exact scratch_eq c n _

/-- Every point's output block: the second payload of its `adj` block, `x · W` and the bias row. -/
theorem outBlock_eq (c : Dev nD) (t : Fin cfg0.N) :
    (outsAt0 m c t.val t.isLt).1
      = k0_pay2 (F := Ideal) (adjBlk m c t) (k0_pay1 (F := Ideal) (xArr m c) (wArr m c)) (biasRow m c) := by
  by_cases h0 : t.val % 25 = 0
  · rw [outsAt0_A m c t h0]
    dsimp only
    refine (out_first c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0)
      (iblk m c 0 t) (iblk m c 1 t) (iblk m c 2 t) (iblk m c 3 t)).trans ?_
    show k0_pay2 (F := Ideal) (adjBlk m c t) (k0_pay1 (F := Ideal) (xBlk m c t) (wBlk m c t)) (biasBlk m c t) = _
    rw [xBlk_eq, wBlk_eq, biasBlk_eq]
  · rw [outsAt0_B m c t h0]
    dsimp only
    refine (out_later c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h))
      (iblk m c 0 t) (iblk m c 1 t) (iblk m c 2 t) (iblk m c 3 t)
      (outsAt0 m c (t.val - 1) (Nat.lt_of_le_of_lt (Nat.sub_le _ _) t.isLt)).2).trans ?_
    show k0_pay2 (F := Ideal) (adjBlk m c t) (outsAt0 m c (t.val - 1) _).2 (biasBlk m c t) = _
    rw [scratch_eq, biasBlk_eq]

/-! ### From blocks to the array -/

/-- The result array of the argument arrays as the region finds them. -/
abbrev resultArr (c : Dev nD) : S10000x16.Idx → EReal := result (xArr m c) (adjArr m c) (wArr m c) (biasArr m c)

/-- The block's activation at row `p` is the layer's at row `400 t + p`. -/
theorem blockActivation_eq (c : Dev nD) (t : Fin cfg0.N) (p : Fin 400) :
    blockActivation (adjBlk m c t) (k0_pay1 (F := Ideal) (xArr m c) (wArr m c)) (biasRow m c) p
      = activation (xArr m c) (adjArr m c) (wArr m c) (biasArr m c) (rowOf t p) := by
  funext j
  unfold blockActivation activation
  rw [biasRow_at]
  refine congrArg (fun s => max (s + biasArr m c (ix1 j)) 0) (Finset.sum_congr rfl fun k _ => ?_)
  rw [adjBlk_at, product_at]

/-- Where row `p`, column `j` of point `t`'s output block lies in the array. -/
theorem emb_out (t : Fin cfg0.N) (p : Fin 400) (j : Fin 16) :
    ((cfg0.win 4).blk t).view.emb (ix2 p j) = ix2 (rowOf t p) j := by
  obtain ⟨-, -, -, -, -, -, -, -, e0, e1⟩ := idx_facts t
  funext a; apply Fin.ext
  match a with
  | ⟨0, _⟩ => show win0_4.index t (0 : Fin 2) * 400 + 1 * p.val = 400 * t.val + p.val; rw [e0]; omega
  | ⟨1, _⟩ => show win0_4.index t (1 : Fin 2) * 16 + 1 * j.val = j.val; rw [e1]; omega

/-- WHAT POINT `t` WRITES BACK is block `t` of the result array. -/
theorem flushed_eq (c : Dev nD) (t : Fin cfg0.N) :
    (dats m 0 c).flushed 4 t = ((cfg0.win 4).blk t).view.read (Elt Ideal) (resultArr m c) := by
  rw [flushed4, outBlock_eq]
  funext y
  obtain ⟨p, j, rfl⟩ : ∃ (p : Fin 400) (j : Fin 16), y = ix2 p j := ⟨y 0, y 1, eq_ix2 y⟩
  show k0_pay2 (F := Ideal) (adjBlk m c t) (k0_pay1 (F := Ideal) (xArr m c) (wArr m c)) (biasRow m c) (ix2 p j)
    = resultArr m c (((cfg0.win 4).blk t).view.emb (ix2 p j))
  rw [block_at, emb_out, blockActivation_eq]
  rfl

/-- An index of the array is in point `t`'s block iff each coordinate is in the block's range on its axis. -/
theorem mem_blk (t : Fin cfg0.N) (i : S10000x16.Idx) :
    i ∈ ((cfg0.win 4).blk t).view.set ↔ ∀ a : Fin 2, win0_4.index t a * S400x16.size a ≤ (i a).val
      ∧ (i a).val < win0_4.index t a * S400x16.size a + S400x16.size a := by
  show i ∈ ((View.whole main_v1).slice (win0_4.rect t)).set ↔ _
  rw [View.set_slice_whole, Rect.mem_set_unit]
  exact Iff.rfl

/-- Every index of the array lies in the block of the point that holds its row. -/
theorem cover (i : S10000x16.Idx) : ∃ t : Fin cfg0.N, (cfg0.win 4).flush t = true ∧ i ∈ ((cfg0.win 4).blk t).view.set := by
  have hi0 : (i 0).val < 10000 := (i 0).isLt
  have hi1 : (i 1).val < 16 := (i 1).isLt
  have hN : cfg0.N = 25 := N_0
  let t : Fin cfg0.N := ⟨(i 0).val / 400, by rw [hN]; omega⟩
  obtain ⟨-, -, -, -, -, -, -, -, e0, e1⟩ := idx_facts t
  have ht : t.val = (i 0).val / 400 := rfl
  refine ⟨t, flush0_4 t, ?_⟩
  rw [mem_blk]
  intro a
  match a with
  | ⟨0, _⟩ => show win0_4.index t (0 : Fin 2) * 400 ≤ (i 0).val ∧ (i 0).val < win0_4.index t (0 : Fin 2) * 400 + 400; rw [e0]; omega
  | ⟨1, _⟩ => show win0_4.index t (1 : Fin 2) * 16 ≤ (i 1).val ∧ (i 1).val < win0_4.index t (1 : Fin 2) * 16 + 16; rw [e1]; omega

/-- THE ARRAY after the run. -/
theorem final (c : Dev nD) : (dats m 0 c).arrAt 4 cfg0.N = resultArr m c :=
  (dats m 0 c).arrAt_eq_of_cover 4 (resultArr m c) (fun t _ => flushed_eq m c t) cover

/-- The result array of the argument arrays as launched. -/
theorem resultArr_eq (c : Dev nD) : resultArr m c
    = result (m ((c : Thread nD τ).loc main_arg0)) (m ((c : Thread nD τ).loc main_arg1))
        (m ((c : Thread nD τ).loc main_arg2)) (m ((c : Thread nD τ).loc main_arg3)) := by
  show result (V m c main_arg0) (V m c main_arg1) (V m c main_arg2) _ = _
  rw [V_main_arg0, V_main_arg1, V_main_arg2]

/-- The run, read: the result array at the layer's log-softmax of the arguments, the arguments unchanged. -/
theorem run : θ_run defs (onTc (τ := τ) (main (F := Ideal))) ⟨m, fun _ => 0, ρ⟩ fun r => ∀ c : Dev nD,
      r.2.mem ((c : Thread nD τ).loc main_v1)
        = result (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1.trans (final m c)).trans (resultArr_eq m c), (h c).2⟩)
    (run_blocks m ρ)

end Cert.KernelIdeal.ArrayValue

end
-- ==== Proof.RefValue.lean ====
/-
  The reference program's result, read index by index, is the stepwise log-softmax of the layer's activation.

  Its stages: `x · W` and `adj · (x · W)` are sums over the contracted coordinate; the bias is broadcast along rows; the
  activation takes the larger of that and zero; the row maximum is a fold of `max` over the sixteen entries of the row,
  started from minus infinity and then compared with minus infinity once more; the exponentials of the shifted row are
  summed from zero; and the result is the shifted entry less the logarithm of that sum.
-/
import proofs.«112271_g41807211659408_cont_sun_c4_862_22_alg».proof.Proof.RefRead
import proofs.«112271_g41807211659408_cont_sun_c4_862_22_alg».proof.Proof.Spec

noncomputable section

open scoped BigOperators

namespace Cert.ReferenceIdeal.RefValue

open Cert.ReferenceIdeal Cert.ReferenceIdeal.Gen Cert.ReferenceIdeal.ReadP Cert.GcnLogSoftmax
open Idealize.ShloMosaic Idealize.ShloMosaic.ValueIdx

variable (x : FVec Ideal S10000x128 .f32) (adj : FVec Ideal S10000x10000 .f32) (W : FVec Ideal S128x16 .f32)
  (b : FVec Ideal S16 .f32)

/-! ### The stages' index maps at coordinates -/

theorem lidx_v0 (k : Fin 10000) (j : Fin 16) (l : Fin 128) : lidx_main_v0 (ix2 k j) l = ix2 k l :=
  funext fun a => Fin.ext (by match a with | ⟨0, _⟩ => rfl | ⟨1, _⟩ => rfl)
theorem ridx_v0 (k : Fin 10000) (j : Fin 16) (l : Fin 128) : ridx_main_v0 (ix2 k j) l = ix2 l j :=
  funext fun a => Fin.ext (by match a with | ⟨0, _⟩ => rfl | ⟨1, _⟩ => rfl)
theorem lidx_v1 (r : Fin 10000) (j : Fin 16) (k : Fin 10000) : lidx_main_v1 (ix2 r j) k = ix2 r k :=
  funext fun a => Fin.ext (by match a with | ⟨0, _⟩ => rfl | ⟨1, _⟩ => rfl)
theorem ridx_v1 (r : Fin 10000) (j : Fin 16) (k : Fin 10000) : ridx_main_v1 (ix2 r j) k = ix2 k j :=
  funext fun a => Fin.ext (by match a with | ⟨0, _⟩ => rfl | ⟨1, _⟩ => rfl)
theorem idx_bias (r : Fin 10000) (j : Fin 16) : idx_main_v2 (idx_main_v3 (ix2 r j)) = ix1 j :=
  funext fun a => Fin.ext (by match a with | ⟨0, _⟩ => rfl)
theorem idx_rowOf (r : Fin 10000) (j : Fin 16) : idx_main_call1_v3 (idx_main_call1_v4 (ix2 r j)) = ix1 r :=
  funext fun a => Fin.ext (by match a with | ⟨0, _⟩ => rfl)
theorem idx_rowOf' (r : Fin 10000) (j : Fin 16) : idx_main_call1_v8 (idx_main_call1_v10 (ix2 r j)) = ix1 r :=
  funext fun a => Fin.ext (by match a with | ⟨0, _⟩ => rfl)
theorem idx_entry (r : Fin 10000) (k : Fin 16) : idx_main_call1_v7 (ix1 r) k = ix2 r k :=
  funext fun a => Fin.ext (by match a with | ⟨0, _⟩ => rfl | ⟨1, _⟩ => rfl)

/-! ### The stages at coordinates -/

/-- The first product at `(k, j)` is the spec's `x · W`. -/
theorem support_at (k : Fin 10000) (j : Fin 16) : val_main_v0 (F := Ideal) x W (ix2 k j) = support x W k j := by
  rw [val_main_v0_apply]
  unfold support
  simp only [lidx_v0, ridx_v0]

/-- The activation at `(r, j)`. -/
theorem activation_at (r : Fin 10000) (j : Fin 16) : val_main_v5 (F := Ideal) x adj W b (ix2 r j) = activation x adj W b r j := by
  rw [val_main_v5_apply, val_main_v4_apply, val_main_v1_apply, val_main_v3_apply, val_main_v2_apply,
    val_main_call0_v0_apply, val_main_call0_cst_apply]
  unfold activation
  simp only [lidx_v1, ridx_v1, support_at, idx_bias, Ideal.maximumf_def, Ideal.addf_def, Ideal.ofBits_def,
    Ideal.ofBits_zero_f32]

/-- Dropping the column axis of a [10000, 16] array leaves its rows. -/
theorem dropCols : S10000x16.Reduces [1] S10000 := by decide

/-- Minus infinity's word is the bottom element. -/
theorem negInf_eq_bot : Ideal.ofBits .f32 0xFF800000#32 = (⊥ : EReal) := by simp [Ideal.ofBits, Ideal.ieee]

/-- The row maximum at `r`. -/
theorem rowMax_at (r : Fin 10000) : val_main_call1_v2 (F := Ideal) x adj W b (ix1 r) = rowMax (activation x adj W b r) := by
  rw [val_main_call1_v2_apply, val_main_call1_v1_apply, val_main_call1_cst_0_apply]
  unfold val_main_call1_v0
  rw [Host.reduce_eq_fold_single FloatOps.maximumf _ _ reducesTo_S10000x16_S10000_d1 dropCols h_S_]
  have hf : (val_main_v5 (F := Ideal) x adj W b ∘ dropCols.lift (ix1 r))
      = fun k : Fin 16 => activation x adj W b r k := funext fun k => by
    have e : dropCols.lift (ix1 r) k = ix2 r (⟨k.val, k.isLt⟩ : Fin 16) :=
      funext fun a => Fin.ext (by match a with | ⟨0, _⟩ => rfl | ⟨1, _⟩ => rfl)
    show val_main_v5 (F := Ideal) x adj W b (dropCols.lift (ix1 r) k) = _
    rw [e]
    exact activation_at x adj W b r _
  show max (Ideal.ofBits .f32 0xFF800000#32)
    ((Finset.univ : Finset (Fin 16)).fold max (Ideal.ofBits .f32 0xFF800000#32)
      (val_main_v5 (F := Ideal) x adj W b ∘ dropCols.lift (ix1 r))) = _
  rw [hf, negInf_eq_bot, max_bot_left]
  rfl

/-- THE REFERENCE'S RESULT, index by index. -/
theorem result_at (r : Fin 10000) (j : Fin 16) :
    val_main_v6 (F := Ideal) x adj W b (ix2 r j) = rowStepwise (activation x adj W b r) j := by
  rw [val_main_v6_apply, val_main_call1_v5_apply, val_main_call1_v10_apply, val_main_call1_v9_apply,
    val_main_call1_v8_apply, val_main_call1_v7_apply, val_main_call1_v4_apply, val_main_call1_v3_apply,
    val_main_call1_cst_1_apply]
  simp only [idx_rowOf, idx_rowOf', idx_entry, val_main_call1_v6_apply, val_main_call1_v5_apply,
    val_main_call1_v4_apply, val_main_call1_v3_apply, activation_at, rowMax_at, Ideal.subf_def, Ideal.hostUnary_exp_def,
    Ideal.hostUnary_log_def, Ideal.ofBits_def, Ideal.ofBits_zero_f32, zero_add]
  rfl

theorem result_eq : val_main_v6 (F := Ideal) x adj W b = fun i => rowStepwise (activation x adj W b (i 0)) (i 1) :=
  funext fun i => by
    obtain ⟨r, j, rfl⟩ : ∃ (r : Fin 10000) (j : Fin 16), i = ix2 r j := ⟨i 0, i 1, eq_ix2 i⟩
    exact result_at x adj W b r j

end Cert.ReferenceIdeal.RefValue

end
-- ==== Proof.Finite.lean ====
/-
  The precondition, read back: every entry of the four argument arrays is a real number.

  The precondition is the conjunction of four `all`s, one per array, each of the entrywise comparison `|v| < +∞`. An
  extended real whose absolute value `max v (-v)` lies strictly below the top element is neither infinity, hence a real.
-/
import proofs.«112271_g41807211659408_cont_sun_c4_862_22_alg».proof.Pre_finite_inputs
import proofs.«112271_g41807211659408_cont_sun_c4_862_22_alg».proof.Proof.Spec
import Idealize.ShloMosaic.Lib.ReduceAll

noncomputable section

namespace Cert.GcnLogSoftmax

open Idealize.ShloMosaic

/-- An entry whose absolute value compares below plus infinity's word is a real number. -/
theorem isReal_of_abs_lt_inf (v : EReal)
    (h : FloatOps.cmpf (F := Ideal) (φ := .f32) .olt (FloatOps.hostAbsf (F := Ideal) (φ := .f32) v)
      (FloatOps.ofBits (F := Ideal) .f32 0x7F800000#32) = 1#1) : IsReal v := by
  induction v using EReal.rec with
  | coe r => exact ⟨r, rfl⟩
  | bot => exfalso; revert h; simp [Ideal.cmpf_def, Ideal.cmp, Ideal.ofBits, Ideal.ieee, Ideal.absf_def]
  | top => exfalso; revert h; simp [Ideal.cmpf_def, Ideal.cmp, Ideal.ofBits, Ideal.ieee, Ideal.absf_def]

instance : Subsingleton Cert.Pre_finite_inputs.S_.Idx := ⟨fun a b => funext fun d => d.elim0⟩

variable [Cert.Pre_finite_inputs.Facts]

open Cert.Pre_finite_inputs in
/-- Under the precondition all four arrays hold real numbers only. -/
theorem inputs_real (x : FVec Ideal S10000x128 .f32) (adj : FVec Ideal S10000x10000 .f32) (W : FVec Ideal S128x16 .f32)
    (b : FVec Ideal S16 .f32) (h : Cert.Pre_finite_inputs.fn (F := Ideal) x adj W b = fun _ => 1#1) :
    (∀ i, IsReal (x i)) ∧ (∀ i, IsReal (adj i)) ∧ (∀ i, IsReal (W i)) ∧ (∀ i, IsReal (b i)) := by
  have h0 := congrFun h ValueIdx.ix0
  dsimp only [Cert.Pre_finite_inputs.fn, Cert.Pre_finite_inputs.fn_part1] at h0
  obtain ⟨hxaW, hb⟩ := IntOp.andi_eq_one.1 h0
  obtain ⟨hxa, hW⟩ := IntOp.andi_eq_one.1 hxaW
  obtain ⟨hx, ha⟩ := IntOp.andi_eq_one.1 hxa
  exact ⟨fun i => isReal_of_abs_lt_inf _ (Host.reduce_andi_all _ _ _ _ _ hx i),
    fun i => isReal_of_abs_lt_inf _ (Host.reduce_andi_all _ _ _ _ _ ha i),
    fun i => isReal_of_abs_lt_inf _ (Host.reduce_andi_all _ _ _ _ _ hW i),
    fun i => isReal_of_abs_lt_inf _ (Host.reduce_andi_all _ _ _ _ _ hb i)⟩

end Cert.GcnLogSoftmax

end
-- ==== Proof.lean ====
/-
  One graph-convolution layer with a row-wise log-softmax, `log_softmax (max (adj · (x · W) + b) 0)` over the sixteen
  columns, computed 400 rows of `adj` at a time against one whole-array computation.

  Both programs form the same activation `h r j = max (∑ k, adj r k * (∑ l, x k l * W l j) + b j) 0`: the blockwise
  program computes `x · W` once, at its first grid point, keeps it in a scratch buffer it carries from point to point, and
  multiplies each block of 400 rows of `adj` against it; at the ideal values a matrix product is the plain sum over the
  contracted coordinate whoever computes it. With `M r` the largest entry of row `r` and `L r = log ∑ j, exp (h r j - M r)`
  the blockwise program ends with `h r j - (M r + L r)` and the whole-array one with `(h r j - M r) - L r`. On the extended
  reals these agree once `M r` is a real number, which the precondition gives: every input entry is real, so every sum of
  products is, and each `h r j` is a real that is at least zero.

  The three frames are the two generated frame certificates and the whole-array program's run with its result dropped;
  the idealization rewrote nothing; the value claim sets the blockwise program's run (the result array as one function of
  the arguments) beside the whole-array program's run read stage by stage.
-/
import proofs.«112271_g41807211659408_cont_sun_c4_862_22_alg».proof.Defs
import proofs.«112271_g41807211659408_cont_sun_c4_862_22_alg».proof.Proof.Gen.Kernel
import proofs.«112271_g41807211659408_cont_sun_c4_862_22_alg».proof.Proof.Gen.Kernel.Skeleton
import proofs.«112271_g41807211659408_cont_sun_c4_862_22_alg».proof.Proof.Gen.Kernel.Launch
import proofs.«112271_g41807211659408_cont_sun_c4_862_22_alg».proof.Proof.Gen.Kernel.Points
import proofs.«112271_g41807211659408_cont_sun_c4_862_22_alg».proof.Proof.Gen.Kernel.Frame
import proofs.«112271_g41807211659408_cont_sun_c4_862_22_alg».proof.Proof.Gen.KernelIdeal
import proofs.«112271_g41807211659408_cont_sun_c4_862_22_alg».proof.Proof.Gen.KernelIdeal.Skeleton
import proofs.«112271_g41807211659408_cont_sun_c4_862_22_alg».proof.Proof.Gen.KernelIdeal.Launch
import proofs.«112271_g41807211659408_cont_sun_c4_862_22_alg».proof.Proof.Gen.KernelIdeal.Points
import proofs.«112271_g41807211659408_cont_sun_c4_862_22_alg».proof.Proof.Gen.KernelIdeal.Frame
import proofs.«112271_g41807211659408_cont_sun_c4_862_22_alg».proof.Proof.Gen.ReferenceIdeal
import proofs.«112271_g41807211659408_cont_sun_c4_862_22_alg».proof.Proof.Gen.Pre_finite_inputs
import proofs.«112271_g41807211659408_cont_sun_c4_862_22_alg».proof.Proof.Gen.KernelIdeal.Value
import proofs.«112271_g41807211659408_cont_sun_c4_862_22_alg».proof.Proof.ArrayValue
import proofs.«112271_g41807211659408_cont_sun_c4_862_22_alg».proof.Proof.RefValue
import proofs.«112271_g41807211659408_cont_sun_c4_862_22_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The whole-array program's run, its result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both runs end, from arguments that agree, at the layer's log-softmax: the blockwise program in the joint form, the
    whole-array program in the stepwise form, one function of real inputs. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2.1, (hagree c).2.2.2]
  refine (Cert.ReferenceIdeal.ReadP.val_main_v6_eq _ _ _ _).trans ?_
  rw [Cert.ReferenceIdeal.RefValue.result_eq]
  obtain ⟨hx, ha, hW, hb⟩ := Cert.GcnLogSoftmax.inputs_real _ _ _ _ (hpre c)
  funext i
  exact (Cert.GcnLogSoftmax.result_stepwise hx ha hW hb i).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
